-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S256x4096 : Shape := ⟨2, ![256, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.Region0.lean ====
/-
  The first launch, one grid point at a time. Point t holds rows 256 t .. 256 t + 255 of the weight array. The body
  loads that block whole, sends every entry to its ternary value (1 above the threshold, -1 below its negation, 0
  between) and stores the block whole in the narrower float format. So after the body the output window's buffer holds
  the ternary block of the input block, the input's buffer is as it was, and nothing else the core holds is touched:
  that is the launch's obligation at every point.
-/
import proofs.«167524_j49074296324136_1_alg».proof.Proof.Gen.Kernel.Launch
import proofs.«167524_j49074296324136_1_alg».proof.Proof.Gen.Kernel.Skeleton
import proofs.«167524_j49074296324136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data whose array is the
    entry contents and whose body leaves the block in place: the window is fetched at every point,
    uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0

/-- What the body leaves in the output window's buffer: the ternary block, stored whole. -/
def out0_1 (x0 : Vec F S256x4096 .f32) : Vec F S256x4096 .bf16 :=
  View.canon [⟨r0_0, k0_pay1 (View.ld x0 r0_0)⟩]

/-- The one store is of the whole 256 x 4096 rectangle, so it covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole buffers, the input's at contents `x0` and the output's at anything: it reads the
    input whole, reads the output (the value is not used), and stores the ternary block over the whole
    output; the input's buffer is as it was. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Runs.lean ====
/-
  What the three control cases of the blocked matrix product share. A grid point is (i, j, k) with k innermost. The
  body resets its accumulator when k = 0 and writes its output block when k = 3; over the 128 points these two
  conditions are congruences of the position: the reset holds exactly at positions = 0 (mod 4), the write-out exactly
  at positions = 3 (mod 4). At every other position the output window is idle: the body leaves its buffer untouched
  and the block is not written back there. The three input windows are never idle.
-/
import proofs.«167524_j49074296324136_1_alg».proof.Proof.Gen.Kernel.Launch
import proofs.«167524_j49074296324136_1_alg».proof.Proof.Gen.Kernel.Skeleton
import proofs.«167524_j49074296324136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The matmul body's two branch conditions, in closed form over the 128 grid points

The grid is (i, j, k) = [8, 4, 4] with k innermost, so the position t has k = t mod 4. The body resets its accumulator
when k = 0 and stores accumulator + bias into the output block when k = 3. -/

/-- The first conditional (reset of the accumulator): the scalar chain on grid coordinate 2 comparing it with 0. -/
abbrev cond1_0 (i : grid1.Coords) : Prop :=
  (Scalar.cmpi .ne (Scalar.extui (Scalar.cmpi .eq (BitVec.ofNat 32 (i 2).val) 0#32)) 0#32) = 1#1

/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (store of the output block): grid coordinate 2 compared with 3. -/
abbrev cond1_1 (i : grid1.Coords) : Prop := k1_cond2 i = 1#1

/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live and where the output window is idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Where the output is not stored (k ≠ 3) the output window is idle, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- Where the output is stored (k = 3) the window is live. -/
theorem liveAt1_3 : ∀ t : Fin cfg1.N, cond1_1 (grid1.coords t) → cfg1.idle 3 (grid1.coords t) = false := by decide +kernel

/-! ## The memrefs the body is called with -/

/-- Each window's current staging memref at a point, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The accumulator: a whole scoped buffer of the kernel's own, carried from point to point. -/
abbrev scM1_0 : Memref sig .tc .vmem S1024x1024 .f32 := Memref.whole cc1_scratch0
/-- The accumulator as a view: what it holds is stated through it. -/
abbrev VS1_0 : View sig .tc .vmem S1024x1024 .f32 := scM1_0.view
/-- One staging buffer of the output window, through which its contents are stated (the choice does not matter:
    pieces that cover the block read back the same through any view of the shape). -/
abbrev VO1_3 : View sig .tc .vmem S1024x1024 .f32 := (Memref.whole cc1_stg3_0 : Memref sig .tc .vmem S1024x1024 .f32).view

/-! ## The class invariant, spelled out

The scoped buffers that are no staging buffer of this region are the four staging buffers of the other region and the
accumulator; the class invariant owns each at some contents, beside the generator register at some state. -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.Kernel.Region1RunA.lean ====
/-
  The blocked product's body at a first step (k = 0), run whole: the accumulator is set to zero and then takes zero
  plus the product of the two input blocks; the output block is not touched. What the accumulator ends with is read off
  the run as the list of its stores.
-/
import proofs.«167524_j49074296324136_1_alg».proof.Proof.Kernel.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 0 (reset branch taken, store branch not taken). On whole memrefs, the three input blocks at their
    contents, the output buffer at contents handed back untouched, the accumulator at anything: the body runs to a
    continuation that holds the inputs and the output buffer as they were and the accumulator with the listed pieces
    written (the reset to zero, then zero plus the step's product). The pieces are the witness the run finds. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Kernel.Region1RunB.lean ====
/-
  The blocked product's body at a middle step (k = 1 or 2), run whole: the accumulator takes what the point before left
  plus the product of the two input blocks; the output block is not touched.
-/
import proofs.«167524_j49074296324136_1_alg».proof.Proof.Kernel.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 1, 2 (neither branch taken). On whole memrefs, the three input blocks at their contents, the output
    buffer at contents handed back untouched, the accumulator at what the point before left: the body runs to a
    continuation that holds the inputs and the output buffer as they were and the accumulator with the listed piece
    written (the found contents plus the step's product). -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Kernel.Region1RunC.lean ====
/-
  The blocked product's body at a last step (k = 3), run whole: the accumulator takes what the point before left plus
  the product of the two input blocks, and the output block takes the accumulator plus the bias row.
-/
import proofs.«167524_j49074296324136_1_alg».proof.Proof.Kernel.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 3 (reset branch not taken, store branch taken). On whole memrefs, the three input blocks at their
    contents, the output buffer at anything, the accumulator at what the point before left: the body runs to a
    continuation that holds the inputs as they were, the accumulator with its piece written (the found contents plus the
    step's product) and the output buffer with its piece written (that accumulator plus the bias row). -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Kernel.Region1Defs.lean ====
/-
  What the blocked product's buffers hold after each grid point, by recursion on the position. After a first step
  (k = 0) the accumulator depends only on that point's two input blocks; after a later step, on its input blocks and on
  what the point before left. The output block is written only at a last step (k = 3), from the accumulator and the
  bias block. The launch's invariant carries the accumulator at exactly these contents from one point to the next
  (before the first point it is at anything).
-/
import proofs.«167524_j49074296324136_1_alg».proof.Proof.Kernel.Region1RunA
import proofs.«167524_j49074296324136_1_alg».proof.Proof.Kernel.Region1RunB
import proofs.«167524_j49074296324136_1_alg».proof.Proof.Kernel.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' buffers hold their blocks at every point

Each input window is uncut and never idle, and the body leaves its block in place; so its current staging buffer holds the
block of the point whether or not it was fetched there (the bias block is fetched only when j moves, every fourth point:
unfetched, the block index has not moved). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output buffer -/

/-- Where the output is not stored its buffer's contents are a placeholder nothing consults: at such a point the window
    is neither written back nor read at the next point. -/
def out1_idle : Vec F S1024x1024 .f32 := VO1_3.read (Elt F) VO1_3.junk

/-- Case k = 0: the accumulator's pieces (the reset, then the update) cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case k = 0 leaves in the accumulator: its pieces read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case k = 1, 2: the accumulator's piece (the update) covers it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case k = 1, 2 leaves in the accumulator. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case k = 3: the output buffer's piece (one whole store) covers its block. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case k = 3 leaves in the output buffer. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case k = 3: the accumulator's piece covers it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case k = 3 leaves in the accumulator. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- What the output window's staging buffer (first component) and the accumulator scratch (second component) hold
    after the body at position `n`. -/
def outsAt1 (V : (c : Dev nD) → (b : Ref sig .tc) → Buf (Elt F) ((c : Thread nD τ).loc b)) (c : Dev nD) : (n : ℕ) → n < cfg1.N → Vec F S1024x1024 .f32 × Vec F S1024x1024 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h3 : 0 % 4 = 3 => by omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h3 : (n + 1) % 4 = 3 => by omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2)

/-- The contents at a point with k = 0. -/
theorem outsAt1_A (c : Dev nD) (t : Fin cfg1.N) (h0 : t.val % 4 = 0) (h1 : ¬t.val % 4 = 3) :
    outsAt1 V c t.val t.isLt = (out1_idle, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- The contents at a point with k = 1, 2: over what the point before left in the accumulator. -/
theorem outsAt1_B (c : Dev nD) (t : Fin cfg1.N) (h0 : ¬t.val % 4 = 0) (h1 : ¬t.val % 4 = 3) :
    outsAt1 V c t.val t.isLt = (out1_idle, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The contents at a point with k = 3: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`. -/
def PhiS (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.Kernel.Region1.lean ====
/-
  The second launch's obligation at every point: started with the accumulator at what the point before left (at
  anything, before the very first point), the body ends with it at this point's contents, the three input blocks
  unchanged, and the output block either written (k = 3) or handed back untouched (k = 0, 1, 2). At its two ends the
  invariant is the plain one: what the launch hands over suffices to start, and the accumulator's named contents are
  forgotten at the end.
-/
import proofs.«167524_j49074296324136_1_alg».proof.Proof.Kernel.Region1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in; the
    invariant hands the body the accumulator (at what the point before left, or at anything at the first point) and takes it
    back at this point's contents, the other scoped buffers and the generator register riding along; where the output is
    not stored its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.Kernel.Run.lean ====
import proofs.«167524_j49074296324136_1_alg».proof.Proof.Kernel.Region0
import proofs.«167524_j49074296324136_1_alg».proof.Proof.Kernel.Region1
import proofs.«167524_j49074296324136_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.StableHlo.Run
import Idealize.ShloMosaic.Lib.Tactic

/-! # The run of the whole program

@main is four segments in order: a host stretch (one reshape of the activations to two axes), the ternarising
region, the blocked matrix product region, and a host stretch (one reshape of the product back to three axes).
This module folds the buffer contents through the four segments from the launch memory, states each region as a
segment entered from one boundary's contents and left at the next, and launches the list: every weakly fair
execution terminates, and every final memory holds, at every unscoped buffer, the last boundary's contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the ternarising region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the ternarising region's exit, which is the product region's entry (no host operation stands between):
    its two arrays at what its sweep leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the product region's exit: its four arrays at what its sweep leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the program returns with. -/
abbrev W4 : Dev nD → Valuation τ sig (Elt F) := fun c => StableHlo.after hostOps2 (W3 m ρ c)

/-! ### What the host stretches leave alone -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ### The arguments end as launched

No host operation writes an argument; a region either reads it through an input window, whose array the sweep
leaves as entered, or does not touch it. -/

/-- The activations: no window of either region. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- The weights: the ternarising region's input window. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) :=
        (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

/-- The bias: the product region's third input window. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) :=
        (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

/-- The prefetched tables' admissible contents: neither region has a table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- The last host stretch's exit state, regrouped: the dues stand apart from the rest. -/
theorem hlast (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The ternarising region over the thread state: entered from every unscoped buffer at `W1`, left at `W2`. Its
    arrays are split out of the unscoped buffers and put back at the exit contents; the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered from every unscoped buffer at `W2`, left at `W3`. Its
    invariant carries the accumulator across the innermost grid axis, so its two ends are reached through the
    region's own entry and exit lemmas: the class invariant (the scoped rest beside the generator register) gives the
    invariant before the first point, and the invariant after the last point gives the class invariant back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ Pipeline.ΦA spec1 c).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: host stretch, the two regions back to back, host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN, at any post that follows from the final readings: from any memory with zero counters, every weakly fair
    execution of @main on the TensorCores terminates, nothing faulting, and every final memory holds at each
    unscoped buffer the last boundary's contents `W4`; so any `Q` those readings imply holds of every final state. -/
theorem run_Q {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN: every final memory holds at each unscoped buffer the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_Q m ρ fun _ h => h

/-- THE FRAME: every final memory holds the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_Q m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩

/-! ## What the boundaries hold, array by array

What the ternarising region finds (the weights as launched), what the product region finds in its three input arrays
(the activations reshaped to two axes, the ternary weights the first region left, the bias as launched), and what
the program returns in its result buffer (the product region's output array, reshaped back to three axes). -/

/-- The first host stretch leaves in `main_v0` the activations read in row-major order at two axes. -/
theorem V1_main_v0 (c : Dev nD) :
    V1 m ρ c main_v0
      = shapeCast S8192x4096 (s := S4x2048x4096) (m ((c : Thread nD τ).loc main_arg0)) shapeCasts_S4x2048x4096_S8192x4096 := by
  show StableHlo.after hostOps0 (W0 m ρ c) (Proc.devRef .tc main_v0) = _
  dsimp only [hostOps0]
  after_results
  rfl
/-- The ternarising region finds the weights as launched. -/
theorem V1_main_arg1 (c : Dev nD) : V1 m ρ c main_arg1 = m ((c : Thread nD τ).loc main_arg1) :=
  W1_of m ρ c main_arg1 (by decide)
/-- The bias is as launched at the first region's entry. -/
theorem V1_main_arg2 (c : Dev nD) : V1 m ρ c main_arg2 = m ((c : Thread nD τ).loc main_arg2) :=
  W1_of m ρ c main_arg2 (by decide)

/-- The product region finds in `main_v1` what the ternarising region's sweep left in its output array. -/
theorem V2_main_v1 (c : Dev nD) : V2 m ρ c main_v1 = (dat0 (V1 m ρ) c).arrAt 1 cfg0.N :=
  W2_arr m ρ c 1
/-- It finds `main_v0` as the first region did: the first region does not touch it. -/
theorem V2_main_v0 (c : Dev nD) : V2 m ρ c main_v0 = V1 m ρ c main_v0 :=
  W2_of_ne m ρ c main_v0 (by decide)
/-- It finds the bias as launched. -/
theorem V2_main_arg2 (c : Dev nD) : V2 m ρ c main_arg2 = m ((c : Thread nD τ).loc main_arg2) :=
  (W2_of_ne m ρ c main_arg2 (by decide)).trans (W1_of m ρ c main_arg2 (by decide))

/-- The last host stretch leaves in `main_v3` the contents of `main_v2` read in row-major order at three axes. -/
theorem W4_main_v3_of_W3 (c : Dev nD) :
    W4 m ρ c (Proc.devRef .tc main_v3)
      = shapeCast S4x2048x4096 (s := S8192x4096) (W3 m ρ c (Proc.devRef .tc main_v2)) shapeCasts_S8192x4096_S4x2048x4096 := by
  show StableHlo.after hostOps2 (W3 m ρ c) (Proc.devRef .tc main_v3) = _
  dsimp only [hostOps2]
  after_results
  rfl
/-- The result buffer: the product region's output array after its sweep, reshaped to three axes. -/
theorem W4_main_v3 (c : Dev nD) :
    W4 m ρ c (Proc.devRef .tc main_v3)
      = shapeCast S4x2048x4096 (s := S8192x4096) ((dat1 (V2 m ρ) c).arrAt 3 cfg1.N) shapeCasts_S8192x4096_S4x2048x4096 :=
  (W4_main_v3_of_W3 m ρ c).trans
    (congrArg (fun x => shapeCast S4x2048x4096 (s := S8192x4096) x shapeCasts_S8192x4096_S4x2048x4096) (W3_arr m ρ c 3))

end Cert.Kernel.Hand

end
-- ==== Proof.KernelIdeal.Region0.lean ====
/-
  The first launch, one grid point at a time. Point t holds rows 256 t .. 256 t + 255 of the weight array. The body
  loads that block whole, sends every entry to its ternary value (1 above the threshold, -1 below its negation, 0
  between) and stores the block whole in the narrower float format. So after the body the output window's buffer holds
  the ternary block of the input block, the input's buffer is as it was, and nothing else the core holds is touched:
  that is the launch's obligation at every point.
-/
import proofs.«167524_j49074296324136_1_alg».proof.Proof.Gen.KernelIdeal.Launch
import proofs.«167524_j49074296324136_1_alg».proof.Proof.Gen.KernelIdeal.Skeleton
import proofs.«167524_j49074296324136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data whose array is the
    entry contents and whose body leaves the block in place: the window is fetched at every point,
    uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0

/-- What the body leaves in the output window's buffer: the ternary block, stored whole. -/
def out0_1 (x0 : Vec F S256x4096 .f32) : Vec F S256x4096 .bf16 :=
  View.canon [⟨r0_0, k0_pay1 (View.ld x0 r0_0)⟩]

/-- The one store is of the whole 256 x 4096 rectangle, so it covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole buffers, the input's at contents `x0` and the output's at anything: it reads the
    input whole, reads the output (the value is not used), and stores the ternary block over the whole
    output; the input's buffer is as it was. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Runs.lean ====
/-
  What the three control cases of the blocked matrix product share. A grid point is (i, j, k) with k innermost. The
  body resets its accumulator when k = 0 and writes its output block when k = 3; over the 128 points these two
  conditions are congruences of the position: the reset holds exactly at positions = 0 (mod 4), the write-out exactly
  at positions = 3 (mod 4). At every other position the output window is idle: the body leaves its buffer untouched
  and the block is not written back there. The three input windows are never idle.
-/
import proofs.«167524_j49074296324136_1_alg».proof.Proof.Gen.KernelIdeal.Launch
import proofs.«167524_j49074296324136_1_alg».proof.Proof.Gen.KernelIdeal.Skeleton
import proofs.«167524_j49074296324136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The matmul body's two branch conditions, in closed form over the 128 grid points

The grid is (i, j, k) = [8, 4, 4] with k innermost, so the position t has k = t mod 4. The body resets its accumulator
when k = 0 and stores accumulator + bias into the output block when k = 3. -/

/-- The first conditional (reset of the accumulator): the scalar chain on grid coordinate 2 comparing it with 0. -/
abbrev cond1_0 (i : grid1.Coords) : Prop :=
  (Scalar.cmpi .ne (Scalar.extui (Scalar.cmpi .eq (BitVec.ofNat 32 (i 2).val) 0#32)) 0#32) = 1#1

/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (store of the output block): grid coordinate 2 compared with 3. -/
abbrev cond1_1 (i : grid1.Coords) : Prop := k1_cond2 i = 1#1

/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are live and where the output window is idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Where the output is not stored (k ≠ 3) the output window is idle, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- Where the output is stored (k = 3) the window is live. -/
theorem liveAt1_3 : ∀ t : Fin cfg1.N, cond1_1 (grid1.coords t) → cfg1.idle 3 (grid1.coords t) = false := by decide +kernel

/-! ## The memrefs the body is called with -/

/-- Each window's current staging memref at a point, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The accumulator: a whole scoped buffer of the kernel's own, carried from point to point. -/
abbrev scM1_0 : Memref sig .tc .vmem S1024x1024 .f32 := Memref.whole cc1_scratch0
/-- The accumulator as a view: what it holds is stated through it. -/
abbrev VS1_0 : View sig .tc .vmem S1024x1024 .f32 := scM1_0.view
/-- One staging buffer of the output window, through which its contents are stated (the choice does not matter:
    pieces that cover the block read back the same through any view of the shape). -/
abbrev VO1_3 : View sig .tc .vmem S1024x1024 .f32 := (Memref.whole cc1_stg3_0 : Memref sig .tc .vmem S1024x1024 .f32).view

/-! ## The class invariant, spelled out

The scoped buffers that are no staging buffer of this region are the four staging buffers of the other region and the
accumulator; the class invariant owns each at some contents, beside the generator register at some state. -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KernelIdeal.Region1RunA.lean ====
/-
  The blocked product's body at a first step (k = 0), run whole: the accumulator is set to zero and then takes zero
  plus the product of the two input blocks; the output block is not touched. What the accumulator ends with is read off
  the run as the list of its stores.
-/
import proofs.«167524_j49074296324136_1_alg».proof.Proof.KernelIdeal.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 0 (reset branch taken, store branch not taken). On whole memrefs, the three input blocks at their
    contents, the output buffer at contents handed back untouched, the accumulator at anything: the body runs to a
    continuation that holds the inputs and the output buffer as they were and the accumulator with the listed pieces
    written (the reset to zero, then zero plus the step's product). The pieces are the witness the run finds. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdeal.Region1RunB.lean ====
/-
  The blocked product's body at a middle step (k = 1 or 2), run whole: the accumulator takes what the point before left
  plus the product of the two input blocks; the output block is not touched.
-/
import proofs.«167524_j49074296324136_1_alg».proof.Proof.KernelIdeal.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 1, 2 (neither branch taken). On whole memrefs, the three input blocks at their contents, the output
    buffer at contents handed back untouched, the accumulator at what the point before left: the body runs to a
    continuation that holds the inputs and the output buffer as they were and the accumulator with the listed piece
    written (the found contents plus the step's product). -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdeal.Region1RunC.lean ====
/-
  The blocked product's body at a last step (k = 3), run whole: the accumulator takes what the point before left plus
  the product of the two input blocks, and the output block takes the accumulator plus the bias row.
-/
import proofs.«167524_j49074296324136_1_alg».proof.Proof.KernelIdeal.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT k = 3 (reset branch not taken, store branch taken). On whole memrefs, the three input blocks at their
    contents, the output buffer at anything, the accumulator at what the point before left: the body runs to a
    continuation that holds the inputs as they were, the accumulator with its piece written (the found contents plus the
    step's product) and the output buffer with its piece written (that accumulator plus the bias row). -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdeal.Region1Defs.lean ====
/-
  What the blocked product's buffers hold after each grid point, by recursion on the position. After a first step
  (k = 0) the accumulator depends only on that point's two input blocks; after a later step, on its input blocks and on
  what the point before left. The output block is written only at a last step (k = 3), from the accumulator and the
  bias block. The launch's invariant carries the accumulator at exactly these contents from one point to the next
  (before the first point it is at anything).
-/
import proofs.«167524_j49074296324136_1_alg».proof.Proof.KernelIdeal.Region1RunA
import proofs.«167524_j49074296324136_1_alg».proof.Proof.KernelIdeal.Region1RunB
import proofs.«167524_j49074296324136_1_alg».proof.Proof.KernelIdeal.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' buffers hold their blocks at every point

Each input window is uncut and never idle, and the body leaves its block in place; so its current staging buffer holds the
block of the point whether or not it was fetched there (the bias block is fetched only when j moves, every fourth point:
unfetched, the block index has not moved). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output buffer -/

/-- Where the output is not stored its buffer's contents are a placeholder nothing consults: at such a point the window
    is neither written back nor read at the next point. -/
def out1_idle : Vec F S1024x1024 .f32 := VO1_3.read (Elt F) VO1_3.junk

/-- Case k = 0: the accumulator's pieces (the reset, then the update) cover it. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case k = 0 leaves in the accumulator: its pieces read back. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case k = 1, 2: the accumulator's piece (the update) covers it. -/
theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case k = 1, 2 leaves in the accumulator. -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case k = 3: the output buffer's piece (one whole store) covers its block. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case k = 3 leaves in the output buffer. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case k = 3: the accumulator's piece covers it. -/
theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case k = 3 leaves in the accumulator. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- What the output window's staging buffer (first component) and the accumulator scratch (second component) hold
    after the body at position `n`. -/
def outsAt1 (V : (c : Dev nD) → (b : Ref sig .tc) → Buf (Elt F) ((c : Thread nD τ).loc b)) (c : Dev nD) : (n : ℕ) → n < cfg1.N → Vec F S1024x1024 .f32 × Vec F S1024x1024 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h3 : 0 % 4 = 3 => by omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h3 : (n + 1) % 4 = 3 => by omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2)

/-- The contents at a point with k = 0. -/
theorem outsAt1_A (c : Dev nD) (t : Fin cfg1.N) (h0 : t.val % 4 = 0) (h1 : ¬t.val % 4 = 3) :
    outsAt1 V c t.val t.isLt = (out1_idle, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- The contents at a point with k = 1, 2: over what the point before left in the accumulator. -/
theorem outsAt1_B (c : Dev nD) (t : Fin cfg1.N) (h0 : ¬t.val % 4 = 0) (h1 : ¬t.val % 4 = 3) :
    outsAt1 V c t.val t.isLt = (out1_idle, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The contents at a point with k = 3: over what the point before left in the accumulator. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`. -/
def PhiS (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KernelIdeal.Region1.lean ====
/-
  The second launch's obligation at every point: started with the accumulator at what the point before left (at
  anything, before the very first point), the body ends with it at this point's contents, the three input blocks
  unchanged, and the output block either written (k = 3) or handed back untouched (k = 0, 1, 2). At its two ends the
  invariant is the plain one: what the launch hands over suffices to start, and the accumulator's named contents are
  forgotten at the end.
-/
import proofs.«167524_j49074296324136_1_alg».proof.Proof.KernelIdeal.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in; the
    invariant hands the body the accumulator (at what the point before left, or at anything at the first point) and takes it
    back at this point's contents, the other scoped buffers and the generator register riding along; where the output is
    not stored its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KernelIdeal.Run.lean ====
import proofs.«167524_j49074296324136_1_alg».proof.Proof.KernelIdeal.Region0
import proofs.«167524_j49074296324136_1_alg».proof.Proof.KernelIdeal.Region1
import proofs.«167524_j49074296324136_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.StableHlo.Run
import Idealize.ShloMosaic.Lib.Tactic

/-! # The run of the whole program

@main is four segments in order: a host stretch (one reshape of the activations to two axes), the ternarising
region, the blocked matrix product region, and a host stretch (one reshape of the product back to three axes).
This module folds the buffer contents through the four segments from the launch memory, states each region as a
segment entered from one boundary's contents and left at the next, and launches the list: every weakly fair
execution terminates, and every final memory holds, at every unscoped buffer, the last boundary's contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch: the ternarising region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the ternarising region's exit, which is the product region's entry (no host operation stands between):
    its two arrays at what its sweep leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the product region's exit: its four arrays at what its sweep leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the program returns with. -/
abbrev W4 : Dev nD → Valuation τ sig (Elt F) := fun c => StableHlo.after hostOps2 (W3 m ρ c)

/-! ### What the host stretches leave alone -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ### The arguments end as launched

No host operation writes an argument; a region either reads it through an input window, whose array the sweep
leaves as entered, or does not touch it. -/

/-- The activations: no window of either region. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- The weights: the ternarising region's input window. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) :=
        (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

/-- The bias: the product region's third input window. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) :=
        (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

/-- The prefetched tables' admissible contents: neither region has a table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- The last host stretch's exit state, regrouped: the dues stand apart from the rest. -/
theorem hlast (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The ternarising region over the thread state: entered from every unscoped buffer at `W1`, left at `W2`. Its
    arrays are split out of the unscoped buffers and put back at the exit contents; the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered from every unscoped buffer at `W2`, left at `W3`. Its
    invariant carries the accumulator across the innermost grid axis, so its two ends are reached through the
    region's own entry and exit lemmas: the class invariant (the scoped rest beside the generator register) gives the
    invariant before the first point, and the invariant after the last point gives the class invariant back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ Pipeline.ΦA spec1 c).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: host stretch, the two regions back to back, host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN, at any post that follows from the final readings: from any memory with zero counters, every weakly fair
    execution of @main on the TensorCores terminates, nothing faulting, and every final memory holds at each
    unscoped buffer the last boundary's contents `W4`; so any `Q` those readings imply holds of every final state. -/
theorem run_Q {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN: every final memory holds at each unscoped buffer the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_Q m ρ fun _ h => h

/-- THE FRAME: every final memory holds the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_Q m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩

/-! ## What the boundaries hold, array by array

What the ternarising region finds (the weights as launched), what the product region finds in its three input arrays
(the activations reshaped to two axes, the ternary weights the first region left, the bias as launched), and what
the program returns in its result buffer (the product region's output array, reshaped back to three axes). -/

/-- The first host stretch leaves in `main_v0` the activations read in row-major order at two axes. -/
theorem V1_main_v0 (c : Dev nD) :
    V1 m ρ c main_v0
      = shapeCast S8192x4096 (s := S4x2048x4096) (m ((c : Thread nD τ).loc main_arg0)) shapeCasts_S4x2048x4096_S8192x4096 := by
  show StableHlo.after hostOps0 (W0 m ρ c) (Proc.devRef .tc main_v0) = _
  dsimp only [hostOps0]
  after_results
  rfl
/-- The ternarising region finds the weights as launched. -/
theorem V1_main_arg1 (c : Dev nD) : V1 m ρ c main_arg1 = m ((c : Thread nD τ).loc main_arg1) :=
  W1_of m ρ c main_arg1 (by decide)
/-- The bias is as launched at the first region's entry. -/
theorem V1_main_arg2 (c : Dev nD) : V1 m ρ c main_arg2 = m ((c : Thread nD τ).loc main_arg2) :=
  W1_of m ρ c main_arg2 (by decide)

/-- The product region finds in `main_v1` what the ternarising region's sweep left in its output array. -/
theorem V2_main_v1 (c : Dev nD) : V2 m ρ c main_v1 = (dat0 (V1 m ρ) c).arrAt 1 cfg0.N :=
  W2_arr m ρ c 1
/-- It finds `main_v0` as the first region did: the first region does not touch it. -/
theorem V2_main_v0 (c : Dev nD) : V2 m ρ c main_v0 = V1 m ρ c main_v0 :=
  W2_of_ne m ρ c main_v0 (by decide)
/-- It finds the bias as launched. -/
theorem V2_main_arg2 (c : Dev nD) : V2 m ρ c main_arg2 = m ((c : Thread nD τ).loc main_arg2) :=
  (W2_of_ne m ρ c main_arg2 (by decide)).trans (W1_of m ρ c main_arg2 (by decide))

/-- The last host stretch leaves in `main_v3` the contents of `main_v2` read in row-major order at three axes. -/
theorem W4_main_v3_of_W3 (c : Dev nD) :
    W4 m ρ c (Proc.devRef .tc main_v3)
      = shapeCast S4x2048x4096 (s := S8192x4096) (W3 m ρ c (Proc.devRef .tc main_v2)) shapeCasts_S8192x4096_S4x2048x4096 := by
  show StableHlo.after hostOps2 (W3 m ρ c) (Proc.devRef .tc main_v3) = _
  dsimp only [hostOps2]
  after_results
  rfl
/-- The result buffer: the product region's output array after its sweep, reshaped to three axes. -/
theorem W4_main_v3 (c : Dev nD) :
    W4 m ρ c (Proc.devRef .tc main_v3)
      = shapeCast S4x2048x4096 (s := S8192x4096) ((dat1 (V2 m ρ) c).arrAt 3 cfg1.N) shapeCasts_S8192x4096_S4x2048x4096 :=
  (W4_main_v3_of_W3 m ρ c).trans
    (congrArg (fun x => shapeCast S4x2048x4096 (s := S8192x4096) x shapeCasts_S8192x4096_S4x2048x4096) (W3_arr m ρ c 3))

end Cert.KernelIdeal.Hand

end
-- ==== Proof.Spec.lean ====
/-
  The function both programs compute, stated once over the argument arrays, index by index, on the extended reals.

  A weight w is sent to its ternary value: 1 where w exceeds the threshold (the f32 nearest 0.05), -1 where w is below
  the negated threshold, 0 otherwise. The result at (p, s, o) is the inner product over d of x[p, s, d] with the
  ternary value of weight[o, d], plus bias[o]. The two literals of the threshold are kept as their bit patterns: both
  programs carry the same words, so they are compared and never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The ternary value of one weight, with the programs' own literals: 1 above the threshold, -1 below its negation,
    0 in between (ordered compares; the nested choice is the programs'). -/
def tern (w : EReal) : EReal :=
  Scalar.select (FloatOps.cmpf (F := Ideal) (φ := .f32) .ogt w (Ideal.ofBits .f32 0x3D4CCCCD#32)) (Ideal.ofBits .f32 0x3F800000#32)
    (Scalar.select (FloatOps.cmpf (F := Ideal) (φ := .f32) .olt w (Ideal.ofBits .f32 0xBD4CCCCD#32)) (Ideal.ofBits .f32 0xBF800000#32)
      (Ideal.ofBits .f32 0x00000000#32))

/-- The result at explicit coordinates: batch p, position s, output feature o. -/
def Gat (x : (⟨3, ![4, 2048, 4096]⟩ : Shape).Idx → EReal) (w : (⟨2, ![4096, 4096]⟩ : Shape).Idx → EReal)
    (b : (⟨1, ![4096]⟩ : Shape).Idx → EReal) (p : Fin 4) (s : Fin 2048) (o : Fin 4096) : EReal :=
  (∑ d : Fin 4096, x (ix3 p s d) * tern (w (ix2 o d))) + b (ix1 o)

/-- The whole result array as one function of the three argument arrays. -/
def G (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => Gat x w b (i 0) (i 1) (i 2)

theorem G_ix3 (x : (⟨3, ![4, 2048, 4096]⟩ : Shape).Idx → EReal) (w : (⟨2, ![4096, 4096]⟩ : Shape).Idx → EReal)
    (b : (⟨1, ![4096]⟩ : Shape).Idx → EReal) (p : Fin 4) (s : Fin 2048) (o : Fin 4096) :
    G x w b (ix3 p s o) = Gat x w b p s o := rfl

end Cert.Spec

end
-- ==== Proof.KernelIdeal.Pay.lean ====
/-
  The bodies' arithmetic entry by entry on the extended reals, where a change of float format is the identity. The
  ternary block is the ternary value of each entry. The accumulator's reset is zero. One reduction step adds to entry
  (p, q) the inner product of row p of the left block with row q of the weight block (the product contracts the second
  axis of both operands into a zero start, so it is just the sum). The last step adds the bias entry of column q. And a
  sum over the 4096 contracted positions is the four tile sums of 1024 added left to right from zero: addition on the
  extended reals is commutative and associative, so this needs no finiteness.
-/
import proofs.«167524_j49074296324136_1_alg».proof.Proof.Gen.KernelIdeal.Skeleton
import proofs.«167524_j49074296324136_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

noncomputable section

namespace Cert.KernelIdeal.Pay

open Cert.KernelIdeal Cert.KernelIdeal.Gen
open Idealize.ShloMosaic Idealize.ShloMosaic.ValueIdx

/-- The ternary block, entry by entry. -/
theorem pay0_apply (x : Vec Ideal S256x4096 .f32) (y : S256x4096.Idx) :
    k0_pay1 (F := Ideal) x y = Cert.Spec.tern (x y) := by
  unfold k0_pay1
  rfl

/-- The reset value of the accumulator is zero everywhere. -/
theorem pay1_apply (y : S1024x1024.Idx) : k1_pay1 (F := Ideal) y = 0 := by
  unfold k1_pay1
  rw [shapeCast_self]
  exact Ideal.ofBits_zero_f32

/-- Output axis 0 is the left operand's free axis. -/
theorem lhs_pay2_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's axis 1 is the contracted one. -/
theorem lhs_pay2_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- Output axis 1 is the right operand's free axis, its axis 0. -/
theorem rhs_pay2_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's axis 1 is the contracted one. -/
theorem rhs_pay2_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into a zero accumulator, read at (p, q): row p of the left operand against row q of the right one. -/
theorem matmul_apply_pq (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ d : Fin 1024, a (ix2 p d) * b (ix2 q d) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_pay2_0 _ _
    | ⟨1, _⟩ => exact (lhs_pay2_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_pay2_0 _ _
    | ⟨1, _⟩ => exact (rhs_pay2_1 _ _).trans hk)
  rw [el, er]

/-- One reduction step: the accumulator's entry (p, q) grows by the inner product of row p of the x block with row q
    of the ternary weight block. -/
theorem pay2_apply (x : Vec Ideal S1024x1024 .f32) (w : Vec Ideal S1024x1024 .bf16) (s : Vec Ideal S1024x1024 .f32)
    (p q : Fin 1024) :
    k1_pay2 (F := Ideal) x w s (ix2 p q) = s (ix2 p q) + ∑ d : Fin 1024, x (ix2 p d) * w (ix2 q d) := by
  unfold k1_pay2
  rw [shapeCast_self, shapeCast_self, shapeCast_self]
  exact congrArg (fun t => s (ix2 p q) + t) (matmul_apply_pq x w p q)

/-- The last step's output: the accumulator plus the bias entry of its column. -/
theorem pay3_apply (b : Vec Ideal S1024 .f32) (s : Vec Ideal S1024x1024 .f32) (p q : Fin 1024) :
    k1_pay3 (F := Ideal) b s (ix2 p q) = s (ix2 p q) + b (ix1 q) := by
  unfold k1_pay3
  rw [shapeCast_self]
  refine congrArg (fun t => s (ix2 p q) + t) ?_
  refine (broadcastTo_apply _ broadcasts_S1x1024_S1024x1024 (ix2 p q) (ix2 (0 : Fin 1) q) (fun a => ?_)).trans ?_
  · match a with
    | ⟨0, _⟩ => rfl
    | ⟨1, _⟩ => rfl
  · refine (shapeCast_addUnit_apply ![1024] b shapeCasts_S1024_S1x1024 (ix2 (0 : Fin 1) q)).trans ?_
    exact congrArg b (funext fun a => match a with | ⟨0, _⟩ => rfl)

/-- Position `d` of tile `k` among the 4096 contracted positions. -/
def tile (k : Fin 4) (d : Fin 1024) : Fin 4096 := ⟨1024 * k.val + d.val, by omega⟩

/-- A sum over the 4096 contracted positions is the four tile sums added left to right from zero (addition on the
    extended reals is commutative and associative, so no finiteness is needed). -/
theorem sum_tiles (f : Fin 4096 → EReal) :
    ((((0 + ∑ d : Fin 1024, f (tile 0 d)) + ∑ d : Fin 1024, f (tile 1 d)) + ∑ d : Fin 1024, f (tile 2 d))
        + ∑ d : Fin 1024, f (tile 3 d)) = ∑ e : Fin 4096, f e := by
  have h : ∑ kd : Fin 4 × Fin 1024, f (tile kd.1 kd.2) = ∑ e : Fin 4096, f e :=
    Fintype.sum_equiv (finProdFinEquiv (m := 4) (n := 1024)) (fun kd => f (tile kd.1 kd.2)) f
      (fun kd => congrArg f (Fin.ext (Nat.add_comm _ _)))
  rw [← h, Fintype.sum_prod_type, Fin.sum_univ_four, zero_add]

end Cert.KernelIdeal.Pay

end
-- ==== Proof.KernelIdeal.Value0.lean ====
/-
  The first launch's result array. Its sixteen blocks of 256 rows tile the array, block t is written back at point t and
  at no other, and what point t writes is the ternary block of the weight rows 256 t .. 256 t + 255. So every entry of
  the result is the ternary value of the weight at the same place.
-/
import proofs.«167524_j49074296324136_1_alg».proof.Proof.KernelIdeal.Region0
import proofs.«167524_j49074296324136_1_alg».proof.Proof.KernelIdeal.Pay
import Idealize.ShloMosaic.Lib.Pipeline.Value
import Idealize.ShloMosaic.Lib.Tactic

set_option maxRecDepth 16384

noncomputable section

namespace Cert.KernelIdeal.Value0

open Cert.KernelIdeal Cert.KernelIdeal.Gen Cert.KernelIdeal.Hand
open Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-- The weight array as the region finds it. -/
abbrev warr (c : Dev nD) : S4096x4096.Idx → EReal := V c main_arg1

/-- The ternary array: entry by entry the ternary value of the weight array. -/
def T0 (c : Dev nD) : S4096x4096.Idx → EReal := fun j => Cert.Spec.tern (warr V c j)

theorem hz : (![0, 0] : Fin 2 → Nat) = fun _ => 0 := funext fun a => by fin_cases a <;> rfl

/-- The block index of both windows at point `t`: row block `t`, column block 0 (decided over the 16 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the ternary array. -/
theorem flushed_eq (c : Dev nD) (t : Fin cfg0.N) :
    (dat0 (F := Ideal) V c).flushed 1 t = ((cfg0.win 1).blk t).view.read (Elt Ideal) (T0 V c) := by
  show (cfg0.win 1).cut (grid0.coords t) ((dat0 (F := Ideal) V c).after 1 t) = _
  rw [after0_1]
  unfold out0_1
  rw [View.canon_unit_zero hz]
  simp only [View.ld_unit_zero (S := S256x4096) hz]
  obtain ⟨e0, e1, e2, e3⟩ := idx_facts t
  funext j
  show k0_pay1 (F := Ideal) (iblk0 V c 0 t) j = Cert.Spec.tern (warr V c (((cfg0.win 1).blk t).view.emb j))
  refine (Pay.pay0_apply (iblk0 V c 0 t) j).trans ?_
  show Cert.Spec.tern (warr V c (((cfg0.win 0).blk t).view.emb j)) = Cert.Spec.tern (warr V c (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; rw [e0, e2]
    | ⟨1, _⟩ => show win0_0.index t (1 : Fin 2) * 4096 + 1 * (j 1).val = win0_1.index t (1 : Fin 2) * 4096 + 1 * (j 1).val; rw [e1, e3]
  rw [h0]

/-- An index of the array is in point `t`'s block iff each coordinate is in the block's range on its axis. -/
theorem mem_blk (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- Every index of the array is in some point's block: row `r` is in block `r / 256`. -/
theorem cover (i : S4096x4096.Idx) :
    ∃ t : Fin cfg0.N, (cfg0.win 1).flush t = true ∧ i ∈ ((cfg0.win 1).blk t).view.set := by
  have hN : cfg0.N = 16 := N_0
  have hi0 : (i 0).val < 4096 := (i 0).isLt
  have hi1 : (i 1).val < 4096 := (i 1).isLt
  let t : Fin cfg0.N := ⟨(i 0).val / 256, by rw [hN]; omega⟩
  obtain ⟨e0, e1, e2, e3⟩ := idx_facts t
  have ht : t.val = (i 0).val / 256 := rfl
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; rw [e2, ht]; omega
  | ⟨1, _⟩ => show win0_1.index t (1 : Fin 2) * 4096 ≤ (i 1).val ∧ (i 1).val < win0_1.index t (1 : Fin 2) * 4096 + 4096; rw [e3]; omega

/-- The output array after the last point is the ternary array. -/
theorem final (c : Dev nD) : (dat0 (F := Ideal) V c).arrAt 1 cfg0.N = T0 V c :=
  (dat0 (F := Ideal) V c).arrAt_eq_of_cover 1 (T0 V c) (fun t _ => flushed_eq V c t) cover

/-- Region 0's output array after its last point is the ternary array, entry by entry. -/
theorem arr0_final (c : Dev nD) : ∀ j : S4096x4096.Idx,
    ((dat0 (F := Ideal) V c).arrAt 1 cfg0.N : S4096x4096.Idx → EReal) j
      = Cert.Spec.tern ((V c main_arg1 : S4096x4096.Idx → EReal) j) := fun j =>
  congrFun (final V c) j

end Cert.KernelIdeal.Value0

end
-- ==== Proof.KernelIdeal.Region1Pieces.lean ====
/-
  The stores the three runs found, read as values. After a first step the accumulator is the step's update applied to
  the reset value (the load between the reset and the update reads the reset's store back); after a later step it is
  the update applied to what the point before left; at a last step the output block is the bias update applied to that
  point's accumulator (the load before it reads the update's store back).
-/
import proofs.«167524_j49074296324136_1_alg».proof.Proof.KernelIdeal.Region1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's stores, read back as values

The body loads and stores whole buffers: every load and store goes through the whole-shape rectangle at zero offsets.
Through it a load reads the buffer's contents, one covering store leaves its payload, and a load after such a store
reads that payload. So what a case leaves in a buffer is the payload of its last store there, over the values its
loads read: the input blocks, and the accumulator as the case found it or as the case's own reset left it. -/

/-- The zero offsets of a rank-2 whole-buffer access. -/
theorem Pieces.offsets2 : (![0, 0] : Fin 2 → Nat) = fun _ => 0 := funext fun a => by fin_cases a <;> rfl
/-- The zero offset of a rank-1 whole-buffer access. -/
theorem Pieces.offsets1 : (![0] : Fin 1 → Nat) = fun _ => 0 := funext fun a => by fin_cases a; rfl

/-- Case k = 0: the accumulator is reset to the zero block, read back, and left at that block plus the step's product. -/
theorem Pieces.sout_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) Pieces.offsets2, View.readCov_unit_zero (S := S1024x1024) _ Pieces.offsets2]
  simp only [View.readAt_eq_ld, harg3.read_unread, harg4.read_unread, View.ld_unit_zero (S := S1024x1024) Pieces.offsets2]

/-- Case k = 1, 2: the accumulator is left at what it held plus the step's product. -/
theorem Pieces.sout_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero Pieces.offsets2]
  simp only [View.readAt_eq_ld, harg3.read_unread, harg4.read_unread, harg7.read_unread, View.ld_unit_zero (S := S1024x1024) Pieces.offsets2]

/-- Case k = 3: the accumulator, likewise, -/
theorem Pieces.sout_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero Pieces.offsets2]
  simp only [View.readAt_eq_ld, harg3.read_unread, harg4.read_unread, harg7.read_unread, View.ld_unit_zero (S := S1024x1024) Pieces.offsets2]

/-- and the output buffer takes the accumulator as just updated (read back after its store) plus the bias row. -/
theorem Pieces.out_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1024 .f32) (xs0 : Vec F S1024x1024 .f32) :
    out1_C_3 c i arg3 harg3 arg4 harg4 arg5 harg5 arg6 harg6 arg7 harg7 hc0 hc1 x0 x1 x2 xs0 = k1_pay3 x2 (k1_pay2 x0 x1 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero Pieces.offsets2, View.readCov_unit_zero (S := S1024x1024) _ Pieces.offsets2]
  simp only [View.readAt_eq_ld, harg3.read_unread, harg4.read_unread, harg5.read_unread, harg7.read_unread,
    View.ld_unit_zero (S := S1024x1024) Pieces.offsets2, View.ld_unit_zero (S := S1024) Pieces.offsets1]

/-! ## What the accumulator and the output buffer hold, through the body's payloads (the value side reads these) -/

/-- At the first step of a reduction (position ≡ 0 mod 4) the accumulator is reset and then takes the step's product. -/
theorem scratch_first (c : Dev nD) (t : Fin cfg1.N) (h0 : t.val % 4 = 0) :
    (outsAt1 V c t.val t.isLt).2 = k1_pay2 (iblk1 V c 0 t) (iblk1 V c 1 t) (k1_pay1 (F := F)) := by
  have h1 : ¬t.val % 4 = 3 := by omega
  rw [outsAt1_A V c t h0 h1]
  dsimp only
  exact Pieces.sout_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At a later step the accumulator takes the step's product on top of what the point before left. -/
theorem scratch_next (c : Dev nD) (t : Fin cfg1.N) (h0 : ¬t.val % 4 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 4 = 3
  · rw [outsAt1_C V c t h0 h1]
    dsimp only
    exact Pieces.sout_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact Pieces.sout_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last step (position ≡ 3 mod 4) the output buffer takes the accumulator plus the bias row. -/
theorem out_last (c : Dev nD) (t : Fin cfg1.N) (h3 : t.val % 4 = 3) :
    (outsAt1 V c t.val t.isLt).1 = k1_pay3 (iblk1 V c 2 t) (outsAt1 V c t.val t.isLt).2 := by
  have h0 : ¬t.val % 4 = 0 := by omega
  rw [outsAt1_C V c t h0 h3]
  dsimp only
  exact (Pieces.out_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h3) (iblk1 V c 0 t) (iblk1 V c 1 t) (iblk1 V c 2 t) (outsAt1 V c (t.val - 1) (Nat.lt_of_le_of_lt (Nat.sub_le _ _) t.isLt)).2).trans
    (congrArg (k1_pay3 (iblk1 V c 2 t)) (Pieces.sout_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h3) (iblk1 V c 0 t) (iblk1 V c 1 t) (iblk1 V c 2 t) (outsAt1 V c (t.val - 1) (Nat.lt_of_le_of_lt (Nat.sub_le _ _) t.isLt)).2).symm)

end Cert.KernelIdeal.Hand

end
-- ==== Proof.KernelIdeal.Value1.lean ====
/-
  The value of the second region's result array. The region walks a grid of 8 x 4 x 4 points (row-block i,
  column-block j, reduction step k, the last innermost). Within a run of four steps the accumulator starts from
  zero and grows by the inner products of a 1024-wide tile of a row of the left operand with the same tile of a row
  of the ternary weights; after the fourth step it holds the inner product over all 4096 positions, and the output
  block takes it plus the bias entry of its column. The eight-by-four output blocks tile the array, each written
  back at the last step of its run, so entry (r, o) of the array ends as
  (sum over e of x[r, e] * w[o, e]) + bias[o].
-/
import proofs.«167524_j49074296324136_1_alg».proof.Proof.KernelIdeal.Region1Pieces
import proofs.«167524_j49074296324136_1_alg».proof.Proof.KernelIdeal.Pay
import Idealize.ShloMosaic.Lib.Pipeline.Value
import Idealize.ShloMosaic.Lib.ValueIdx
import Idealize.ShloMosaic.Lib.Tactic

set_option maxRecDepth 16384

noncomputable section

namespace Cert.KernelIdeal.Value1

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The left operand's array (8192 rows of 4096 entries) as the region finds it. -/
abbrev xarr (c : Dev nD) : Vec Ideal S8192x4096 .f32 := V c main_v0
/-- The ternary weight array (4096 rows of 4096 entries) as the region finds it. -/
abbrev warr (c : Dev nD) : Vec Ideal S4096x4096 .bf16 := V c main_v1
/-- The bias row as the region finds it. -/
abbrev barr (c : Dev nD) : Vec Ideal S4096 .f32 := V c main_arg2
/-- The result array after the region's last point. -/
abbrev oarr (c : Dev nD) : Vec Ideal S8192x4096 .f32 := (dat1 (F := Ideal) V c).arrAt 3 cfg1.N

/-! ## Where a point's blocks sit

The grid has 8 x 4 x 4 points, the last axis innermost: point `t` has row-block `t / 16`, column-block
`t / 4 % 4` and reduction step `t % 4`. -/

theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- The left operand's block at a point. -/
abbrev xblk (c : Dev nD) (t : Fin cfg1.N) : Vec Ideal S1024x1024 .f32 := iblk1 (F := Ideal) V c 0 t
/-- The weight block at a point. -/
abbrev wblk (c : Dev nD) (t : Fin cfg1.N) : Vec Ideal S1024x1024 .bf16 := iblk1 (F := Ideal) V c 1 t
/-- The bias block at a point. -/
abbrev bblk (c : Dev nD) (t : Fin cfg1.N) : Vec Ideal S1024 .f32 := iblk1 (F := Ideal) V c 2 t

/-- Entry (p, d) of the left operand's block at point `t` is entry (1024 (t / 16) + p, 1024 (t % 4) + d) of its array. -/
theorem xblk_apply (c : Dev nD) (t : Fin cfg1.N) (p d : Fin 1024) (r : Fin 8192) (e : Fin 4096)
    (hr : r.val = 1024 * (t.val / 16) + p.val) (he : e.val = 1024 * (t.val % 4) + d.val) :
    xblk V c t (ix2 p d) = xarr V c (ix2 r e) := by
  obtain ⟨e0, e1, -⟩ := idx_facts t
  unfold xblk xarr iblk1
  rw [View.read_apply]
  show V c main_v0 _ = V c main_v0 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * d.val = e.val; rw [e1, he]; omega

/-- Entry (q, d) of the weight block at point `t` is entry (1024 (t / 4 % 4) + q, 1024 (t % 4) + d) of its array. -/
theorem wblk_apply (c : Dev nD) (t : Fin cfg1.N) (q d : Fin 1024) (o e : Fin 4096)
    (ho : o.val = 1024 * (t.val / 4 % 4) + q.val) (he : e.val = 1024 * (t.val % 4) + d.val) :
    wblk V c t (ix2 q d) = warr V c (ix2 o e) := by
  obtain ⟨-, -, e2, e3, -⟩ := idx_facts t
  unfold wblk warr iblk1
  rw [View.read_apply]
  show V c main_v1 _ = V c main_v1 _
  congr 1
  funext a
  apply Fin.ext
  match a with
  | ⟨0, _⟩ => show win1_1.index t (0 : Fin 2) * 1024 + 1 * q.val = o.val; rw [e2, ho]; omega
  | ⟨1, _⟩ => show win1_1.index t (1 : Fin 2) * 1024 + 1 * d.val = e.val; rw [e3, he]; omega

/-- Entry q of the bias block at point `t` is entry 1024 (t / 4 % 4) + q of the bias row. -/
theorem bblk_apply (c : Dev nD) (t : Fin cfg1.N) (q : Fin 1024) (o : Fin 4096)
    (ho : o.val = 1024 * (t.val / 4 % 4) + q.val) :
    bblk V c t (ix1 q) = barr V c (ix1 o) := by
  obtain ⟨-, -, -, -, e4, -⟩ := idx_facts t
  unfold bblk barr iblk1
  rw [View.read_apply]
  show V c main_arg2 _ = V c main_arg2 _
  congr 1
  funext a
  apply Fin.ext
  match a with
  | ⟨0, _⟩ => show win1_2.index t (0 : Fin 1) * 1024 + 1 * q.val = o.val; rw [e4, ho]; omega

/-! ## The accumulator within a run of four points -/

/-- What the accumulator holds after position `n`. -/
abbrev acc (c : Dev nD) (n : ℕ) (h : n < cfg1.N) : Vec Ideal S1024x1024 .f32 := (outsAt1 (F := Ideal) V c n h).2
/-- What the output's staging buffer holds after position `n`. -/
abbrev obuf (c : Dev nD) (n : ℕ) (h : n < cfg1.N) : Vec Ideal S1024x1024 .f32 := (outsAt1 (F := Ideal) V c n h).1

/-- One step's inner products: row p of the left block against row q of the weight block. -/
abbrev stepSum (c : Dev nD) (n : ℕ) (h : n < cfg1.N) (p q : Fin 1024) : EReal :=
  ∑ d : Fin 1024, xblk V c ⟨n, h⟩ (ix2 p d) * wblk V c ⟨n, h⟩ (ix2 q d)

/-- At the first step of a run the accumulator is zero plus the step's inner product. -/
theorem acc_first (c : Dev nD) (n : ℕ) (h : n < cfg1.N) (hn : n % 4 = 0) (p q : Fin 1024) :
    acc V c n h (ix2 p q) = 0 + stepSum V c n h p q := by
  refine (congrFun (scratch_first (F := Ideal) V c ⟨n, h⟩ hn) (ix2 p q)).trans ?_
  refine (pay2_apply (xblk V c ⟨n, h⟩) (wblk V c ⟨n, h⟩) (k1_pay1 (F := Ideal)) p q).trans ?_
  rw [pay1_apply]

/-- At a later step it grows by the step's inner product. -/
theorem acc_next (c : Dev nD) (n : ℕ) (h : n < cfg1.N) (hn : ¬n % 4 = 0) (p q : Fin 1024) :
    acc V c n h (ix2 p q) = acc V c (n - 1) (Nat.lt_of_le_of_lt (Nat.sub_le _ _) h) (ix2 p q) + stepSum V c n h p q := by
  refine (congrFun (scratch_next (F := Ideal) V c ⟨n, h⟩ hn) (ix2 p q)).trans ?_
  exact pay2_apply (xblk V c ⟨n, h⟩) (wblk V c ⟨n, h⟩) (acc V c (n - 1) (Nat.lt_of_le_of_lt (Nat.sub_le _ _) h)) p q

/-- A step's inner product, read off the arrays: the step at reduction position `k` covers tile `k` of the 4096
    contracted positions. -/
theorem stepSum_eq (c : Dev nD) (n : ℕ) (h : n < cfg1.N) (k : Fin 4) (hk : n % 4 = k.val) (p q : Fin 1024)
    (r : Fin 8192) (o : Fin 4096) (hr : r.val = 1024 * (n / 16) + p.val) (ho : o.val = 1024 * (n / 4 % 4) + q.val) :
    stepSum V c n h p q = ∑ d : Fin 1024, xarr V c (ix2 r (tile k d)) * warr V c (ix2 o (tile k d)) := by
  refine Finset.sum_congr rfl fun d _ => ?_
  rw [xblk_apply V c ⟨n, h⟩ p d r (tile k d) hr (by show 1024 * k.val + d.val = 1024 * (n % 4) + d.val; rw [hk]),
    wblk_apply V c ⟨n, h⟩ q d o (tile k d) ho (by show 1024 * k.val + d.val = 1024 * (n % 4) + d.val; rw [hk])]

/-- After the last step of a run the accumulator holds the whole inner product over the 4096 contracted positions. -/
theorem acc_last (c : Dev nD) (n : ℕ) (h : n < cfg1.N) (h3 : n % 4 = 3) (p q : Fin 1024)
    (r : Fin 8192) (o : Fin 4096) (hr : r.val = 1024 * (n / 16) + p.val) (ho : o.val = 1024 * (n / 4 % 4) + q.val) :
    acc V c n h (ix2 p q) = ∑ e : Fin 4096, xarr V c (ix2 r e) * warr V c (ix2 o e) := by
  have h1 : n - 1 < cfg1.N := by omega
  have h2 : n - 1 - 1 < cfg1.N := by omega
  have h0 : n - 1 - 1 - 1 < cfg1.N := by omega
  rw [acc_next V c n h (by omega) p q, acc_next V c (n - 1) h1 (by omega) p q,
    acc_next V c (n - 1 - 1) h2 (by omega) p q, acc_first V c (n - 1 - 1 - 1) h0 (by omega) p q,
    stepSum_eq V c n h 3 (by omega) p q r o hr ho,
    stepSum_eq V c (n - 1) h1 2 (by show (n - 1) % 4 = 2; omega) p q r o (by omega) (by omega),
    stepSum_eq V c (n - 1 - 1) h2 1 (by show (n - 1 - 1) % 4 = 1; omega) p q r o (by omega) (by omega),
    stepSum_eq V c (n - 1 - 1 - 1) h0 0 (by show (n - 1 - 1 - 1) % 4 = 0; omega) p q r o (by omega) (by omega)]
  exact sum_tiles fun e => xarr V c (ix2 r e) * warr V c (ix2 o e)

/-- The result function: entry (r, o) is the inner product of row r of the left operand with row o of the ternary
    weights, plus the bias entry o. -/
abbrev G (c : Dev nD) : Vec Ideal S8192x4096 .f32 := fun i =>
  (∑ e : Fin 4096, xarr V c (ix2 (i 0) e) * warr V c (ix2 (i 1) e)) + barr V c (ix1 (i 1))

/-- What a run's last point leaves in the output's staging buffer is its block of the result function. -/
theorem obuf_last (c : Dev nD) (t : Fin cfg1.N) (h3 : t.val % 4 = 3) (p q : Fin 1024)
    (r : Fin 8192) (o : Fin 4096) (hr : r.val = 1024 * (t.val / 16) + p.val) (ho : o.val = 1024 * (t.val / 4 % 4) + q.val) :
    obuf V c t.val t.isLt (ix2 p q) = G V c (ix2 r o) := by
  refine (congrFun (out_last (F := Ideal) V c t h3) (ix2 p q)).trans ?_
  refine (pay3_apply (bblk V c t) (acc V c t.val t.isLt) p q).trans ?_
  rw [acc_last V c t.val t.isLt h3 p q r o hr ho, bblk_apply V c t q o ho]

/-! ## From the blocks to the array -/

/-- What a run's last point leaves, at a block index and the array index it sits at. -/
theorem obuf_last_idx (c : Dev nD) (t : Fin cfg1.N) (h3 : t.val % 4 = 3) (y : S1024x1024.Idx) (i : S8192x4096.Idx)
    (h0 : (i 0).val = 1024 * (t.val / 16) + (y 0).val) (h1 : (i 1).val = 1024 * (t.val / 4 % 4) + (y 1).val) :
    obuf V c t.val t.isLt y = G V c i := by
  rw [eq_ix2 y, eq_ix2 i]
  exact obuf_last V c t h3 (y 0) (y 1) (i 0) (i 1) h0 h1

/-- What the point `t` writes back is its block of the result function. -/
theorem flushed_eq (c : Dev nD) (t : Fin cfg1.N) (hf : (cfg1.win 3).flush t = true) :
    (dat1 (F := Ideal) V c).flushed 3 t = ((cfg1.win 3).blk t).view.read (Elt Ideal) (G V c) := by
  have h3 : t.val % 4 = 3 := (flush1_3 t).mp hf
  obtain ⟨-, -, -, -, -, e5, e6⟩ := idx_facts t
  show (cfg1.win 3).cut (grid1.coords t) ((dat1 (F := Ideal) V c).after 3 t) = _
  rw [after1_3]
  funext j
  rw [View.read_apply]
  refine obuf_last_idx V c t h3 ((cfg1.win 3).xinj (grid1.coords t) j) (((cfg1.win 3).blk t).view.emb j) ?_ ?_
  · show win1_3.index t (0 : Fin 2) * 1024 + 1 * (j 0).val = 1024 * (t.val / 16) + (j 0).val
    rw [e5]; omega
  · show win1_3.index t (1 : Fin 2) * 1024 + 1 * (j 1).val = 1024 * (t.val / 4 % 4) + (j 1).val
    rw [e6]; omega

/-- An index of the array is in point `t`'s block iff each coordinate is in the block's range on its axis. -/
theorem mem_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- Every entry of the array is written back by the last point of the run of its row-block and column-block. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨16 * ((i 0).val / 1024) + 4 * ((i 1).val / 1024) + 3, by rw [hN]; omega⟩
  have htv : t.val = 16 * ((i 0).val / 1024) + 4 * ((i 1).val / 1024) + 3 := rfl
  obtain ⟨-, -, -, -, -, e5, e6⟩ := idx_facts t
  refine ⟨t, (flush1_3 t).mpr (by rw [htv]; omega), ?_⟩
  rw [mem_blk]
  intro a
  match a with
  | ⟨0, _⟩ => show win1_3.index t (0 : Fin 2) * 1024 ≤ (i 0).val ∧ (i 0).val < win1_3.index t (0 : Fin 2) * 1024 + 1024
              rw [e5, htv]; omega
  | ⟨1, _⟩ => show win1_3.index t (1 : Fin 2) * 1024 ≤ (i 1).val ∧ (i 1).val < win1_3.index t (1 : Fin 2) * 1024 + 1024
              rw [e6, htv]; omega

/-- The result array after the region is the result function. -/
theorem final (c : Dev nD) : oarr V c = G V c :=
  (dat1 (F := Ideal) V c).arrAt_eq_of_cover 3 (G V c) (flushed_eq V c) cover

/-- Entry (r, o) of the result array after the region: the inner product of row r of the left operand with row o of
    the ternary weights over all 4096 positions, plus the bias entry o. -/
theorem arr1_final (c : Dev nD) : ∀ (r : Fin 8192) (o : Fin 4096),
    oarr V c (ix2 r o) = (∑ e : Fin 4096, xarr V c (ix2 r e) * warr V c (ix2 o e)) + barr V c (ix1 o) :=
  fun r o => congrFun (final V c) (ix2 r o)

end Cert.KernelIdeal.Value1

end
-- ==== Proof.Reshape.lean ====
/-
  The two host reshapes read at an index. Flattening [4, 2048, 4096] to [8192, 4096] keeps row-major order: entry
  (p, s, e) sits at row 2048 p + s, column e. The reshape back to [4, 2048, 4096] reads row 2048 p + s at (p, s, ·).
-/
import Idealize.ShloMosaic.Lib.ValueIdx
import Idealize.ShloMosaic.Lib.ValueLayout
import Idealize.ShloMosaic.Lib.Pipeline.Value

noncomputable section

namespace Cert.Reshape

open Idealize.ShloMosaic Idealize.ShloMosaic.ValueIdx

/-- Row 2048 p + s of the flattened array. -/
def row (p : Fin 4) (s : Fin 2048) : Fin 8192 := ⟨2048 * p.val + s.val, by omega⟩

theorem row_val (p : Fin 4) (s : Fin 2048) : (row p s).val = 2048 * p.val + s.val := rfl

/-- Every row of the flattened array is row 2048 p + s for its quotient and remainder by 2048. -/
theorem row_div_mod (r : Fin 8192) : row ⟨r.val / 2048, by omega⟩ ⟨r.val % 2048, Nat.mod_lt _ (by norm_num)⟩ = r := by
  apply Fin.ext
  show 2048 * (r.val / 2048) + r.val % 2048 = r.val
  omega

variable {α : Type}

/-- The flattened array at (2048 p + s, e) is the original at (p, s, e). -/
theorem flatten_apply (x : (⟨3, ![4, 2048, 4096]⟩ : Shape).Idx → α)
    (h : (⟨3, ![4, 2048, 4096]⟩ : Shape).ShapeCasts ⟨2, ![8192, 4096]⟩) (p : Fin 4) (s : Fin 2048) (e : Fin 4096) :
    shapeCast ⟨2, ![8192, 4096]⟩ x h (ix2 (row p s) e) = x (ix3 p s e) :=
  shapeCast_apply x h _ _ (by
    rw [Shape.rowMajor_val_three, Shape.rowMajor_val_two]
    show (p.val * 2048 + s.val) * 4096 + e.val = (2048 * p.val + s.val) * 4096 + e.val
    rw [Nat.mul_comm p.val 2048])

/-- The array restored to three axes reads, at (p, s, o), row 2048 p + s of the flat one. -/
theorem unflatten_apply (y : (⟨2, ![8192, 4096]⟩ : Shape).Idx → α)
    (h : (⟨2, ![8192, 4096]⟩ : Shape).ShapeCasts ⟨3, ![4, 2048, 4096]⟩) (p : Fin 4) (s : Fin 2048) (o : Fin 4096) :
    shapeCast ⟨3, ![4, 2048, 4096]⟩ y h (ix3 p s o) = y (ix2 (row p s) o) :=
  shapeCast_apply y h _ _ (by
    rw [Shape.rowMajor_val_three, Shape.rowMajor_val_two]
    show (2048 * p.val + s.val) * 4096 + o.val = (p.val * 2048 + s.val) * 4096 + o.val
    rw [Nat.mul_comm p.val 2048])

end Cert.Reshape

end
-- ==== Proof.Assemble.lean ====
/-
  The kernel's pipeline composed, over abstract arrays: flatten x to rows, take the ternary weights, form every row's
  inner products with the weight rows and add the bias entry, restore the three axes. The result is the specification
  `G`, entry by entry: row 2048 p + s of the flat product is entry (p, s, ·) of the result, and the flat x at that row
  is x at (p, s, ·).
-/
import proofs.«167524_j49074296324136_1_alg».proof.Proof.Spec
import proofs.«167524_j49074296324136_1_alg».proof.Proof.Reshape

noncomputable section

namespace Cert.Assemble

open Idealize.ShloMosaic Idealize.ShloMosaic.ValueIdx Cert.Spec Cert.Reshape

theorem result_eq
    (x : (⟨3, ![4, 2048, 4096]⟩ : Shape).Idx → EReal) (w : (⟨2, ![4096, 4096]⟩ : Shape).Idx → EReal)
    (b : (⟨1, ![4096]⟩ : Shape).Idx → EReal)
    (x2 : (⟨2, ![8192, 4096]⟩ : Shape).Idx → EReal) (wb : (⟨2, ![4096, 4096]⟩ : Shape).Idx → EReal)
    (o2 : (⟨2, ![8192, 4096]⟩ : Shape).Idx → EReal) (out : (⟨3, ![4, 2048, 4096]⟩ : Shape).Idx → EReal)
    (h1 : (⟨3, ![4, 2048, 4096]⟩ : Shape).ShapeCasts ⟨2, ![8192, 4096]⟩)
    (h2 : (⟨2, ![8192, 4096]⟩ : Shape).ShapeCasts ⟨3, ![4, 2048, 4096]⟩)
    (hx2 : x2 = shapeCast ⟨2, ![8192, 4096]⟩ x h1)
    (hwb : ∀ j, wb j = tern (w j))
    (ho2 : ∀ (r : Fin 8192) (o : Fin 4096), o2 (ix2 r o) = (∑ e : Fin 4096, x2 (ix2 r e) * wb (ix2 o e)) + b (ix1 o))
    (hout : out = shapeCast ⟨3, ![4, 2048, 4096]⟩ o2 h2) :
    out = G x w b := by
  funext i
  obtain ⟨p, s, o, rfl⟩ : ∃ (p : Fin 4) (s : Fin 2048) (o : Fin 4096), i = ix3 p s o := ⟨i 0, i 1, i 2, eq_ix3 i⟩
  rw [hout, unflatten_apply, ho2, G_ix3]
  unfold Gat
  refine congrArg (· + b (ix1 o)) (Finset.sum_congr rfl fun e _ => ?_)
  rw [hx2, flatten_apply, hwb]

end Cert.Assemble

end
-- ==== Proof.KernelIdeal.KValue.lean ====
import proofs.«167524_j49074296324136_1_alg».proof.Proof.KernelIdeal.Run
import proofs.«167524_j49074296324136_1_alg».proof.Proof.KernelIdeal.Value0
import proofs.«167524_j49074296324136_1_alg».proof.Proof.KernelIdeal.Value1
import proofs.«167524_j49074296324136_1_alg».proof.Proof.Assemble

set_option maxRecDepth 16384

noncomputable section

/-! # The idealized kernel's run, its result named by the specification

The run leaves at every buffer the last boundary's contents. The returned array is the last host reshape of the
product region's result array; that array holds, at row r and column o, the inner product of row r of the flattened
activations with row o of the ternary weights, plus the bias entry o; the flattened activations are the first host
reshape of the launched activations, the ternary weights are entry by entry the ternary value of the launched
weights, and the bias is as launched. Composed, the returned array is the specification's function of the three
launched arguments. -/

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The product region finds the activations flattened: the first host reshape of the launched activations, which
    the ternarising region does not touch. -/
theorem flat_x (c : Dev nD) :
    (V2 m ρ c main_v0 : S8192x4096.Idx → EReal)
      = shapeCast S8192x4096 (m ((c.tc : Thread nD τ).loc main_arg0) : S4x2048x4096.Idx → EReal) shapeCasts_S4x2048x4096_S8192x4096 :=
  (V2_main_v0 m ρ c).trans (V1_main_v0 m ρ c)

/-- The product region finds the ternary weights: entry by entry the ternary value of the launched weights. -/
theorem tern_w (c : Dev nD) (j : S4096x4096.Idx) :
    (V2 m ρ c main_v1 : S4096x4096.Idx → EReal) j = Cert.Spec.tern ((m ((c.tc : Thread nD τ).loc main_arg1) : S4096x4096.Idx → EReal) j) := by
  rw [V2_main_v1 m ρ c, Value0.arr0_final (V1 m ρ) c j, V1_main_arg1 m ρ c]

/-- The returned array is the specification's function of the three launched arguments. -/
theorem result_G (c : Dev nD) :
    (W4 m ρ c (Proc.devRef .tc main_v3) : S4x2048x4096.Idx → EReal)
      = Cert.Spec.G (m ((c.tc : Thread nD τ).loc main_arg0)) (m ((c.tc : Thread nD τ).loc main_arg1)) (m ((c.tc : Thread nD τ).loc main_arg2)) :=
  Cert.Assemble.result_eq _ _ _ (V2 m ρ c main_v0) (V2 m ρ c main_v1) ((dat1 (V2 m ρ) c).arrAt 3 cfg1.N) _
    shapeCasts_S4x2048x4096_S8192x4096 shapeCasts_S8192x4096_S4x2048x4096
    (flat_x m ρ c) (tern_w m ρ c)
    (fun r o => by
      have h := Value1.arr1_final (V2 m ρ) c r o
      rw [show Value1.barr (V2 m ρ) c = m ((c.tc : Thread nD τ).loc main_arg2) from V2_main_arg2 m ρ c] at h
      exact h)
    (W4_main_v3 m ρ c)

/-- THE RUN, with its result named: every weakly fair execution of the idealized kernel terminates, and every final
    memory holds at the returned array the specification's function of the three launched arguments, which are
    unchanged. -/
theorem run_G : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v3)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  run_Q m ρ fun s h c =>
    ⟨(h c _ (mem_uc main_v3 (by decide))).trans (result_G m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩

end Cert.KernelIdeal.KValue

end
-- ==== Proof.RefValue.lean ====
/-
  The reference's side of the certificate. The reference sends each weight to its ternary value (two ordered compares
  against the threshold words and a nested choice), keeps the format (the conversion is the identity on the extended
  reals), contracts x with the ternary weights over the feature axis d in ONE inner product, and adds the bias row
  broadcast over batch and position. Index by index that is the specification's function: at (p, s, o) the sum over d
  of x[p, s, d] times the ternary value of weight[o, d], plus bias[o]. Nothing here evaluates a literal: the threshold
  words, 1, -1 and 0 stand on both sides as the same bit patterns.
-/
import proofs.«167524_j49074296324136_1_alg».proof.Defs
import proofs.«167524_j49074296324136_1_alg».proof.Proof.Gen.ReferenceIdeal.Run
import proofs.«167524_j49074296324136_1_alg».proof.Proof.Gen.ReferenceIdeal.Read
import proofs.«167524_j49074296324136_1_alg».proof.Proof.Gen.Pre_finite_inputs
import proofs.«167524_j49074296324136_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.StableHlo
  Idealize.ShloMosaic.ValueIdx

/-- The weight operand of the reference's inner product, at an index: the ternary value of the weight there. The two
    compares read the weight against the broadcast threshold words, the nested choice picks 1, -1 or 0, and the
    conversion after it changes nothing. -/
theorem ternary_weight_apply (w : FVec Ideal S4096x4096 .f32) (j : S4096x4096.Idx) :
    val_main_v6 (F := Ideal) w j = Cert.Spec.tern (w j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply,
    val_main_cst_2_apply]
  rfl

/-- The left operand's index at contraction position d: batch and position of the result's index, feature d. -/
theorem lhs_index (p : Fin 4) (s : Fin 2048) (o d : Fin 4096) : lidx_main_v7 (ix3 p s o) d = ix3 p s d :=
  funext fun a => by match a with | ⟨0, _⟩ => rfl | ⟨1, _⟩ => rfl | ⟨2, _⟩ => rfl

/-- The right operand's index at contraction position d: the weight's row is the result's output feature. -/
theorem rhs_index (p : Fin 4) (s : Fin 2048) (o d : Fin 4096) : ridx_main_v7 (ix3 p s o) d = ix2 o d :=
  funext fun a => by match a with | ⟨0, _⟩ => rfl | ⟨1, _⟩ => rfl

/-- The two broadcasts of the bias read it at the result's output feature. -/
theorem bias_index (p : Fin 4) (s : Fin 2048) (o : Fin 4096) : idx_main_v8 (idx_main_v9 (ix3 p s o)) = ix1 o :=
  funext fun a => by match a with | ⟨0, _⟩ => rfl

/-- The reference's composed term is the specification's function of the three arguments. -/
theorem result_eq (x : FVec Ideal S4x2048x4096 .f32) (w : FVec Ideal S4096x4096 .f32) (b : FVec Ideal S4096 .f32) :
    addf (Host.dotGeneral dot_S4x2048x4096_S4096x4096_S4x2048x4096_2_1_01_0_n_n none (x) (id (select (cmpf .ogt (w) (broadcastInDim S4096x4096 ![] bcast_S_S4096x4096 (constant S_ .f32 0x3D4CCCCD#32))) (broadcastInDim S4096x4096 ![] bcast_S_S4096x4096 (constant S_ .f32 0x3F800000#32)) (select (cmpf .olt (w) (broadcastInDim S4096x4096 ![] bcast_S_S4096x4096 (constant S_ .f32 0xBD4CCCCD#32))) (broadcastInDim S4096x4096 ![] bcast_S_S4096x4096 (constant S_ .f32 0xBF800000#32)) (broadcastInDim S4096x4096 ![] bcast_S_S4096x4096 (constant S_ .f32 0x00000000#32)))))) (broadcastInDim S4x2048x4096 ![0, 1, 2] bcast_S1x1x4096_S4x2048x4096_0_1_2 (broadcastInDim S1x1x4096 ![2] bcast_S4096_S1x1x4096_2 (b)))
      = Cert.Spec.G x w b := by
  rw [val_main_v10_eq (F := Ideal) x w b]
  funext i
  obtain ⟨p, s, o, rfl⟩ : ∃ (p : Fin 4) (s : Fin 2048) (o : Fin 4096), i = ix3 p s o := ⟨i 0, i 1, i 2, eq_ix3 i⟩
  rw [Cert.Spec.G_ix3, val_main_v10_apply, val_main_v7_apply, val_main_v9_apply, val_main_v8_apply]
  simp only [lhs_index, rhs_index, bias_index, ternary_weight_apply]
  rfl

/-- Every weakly fair execution of the reference ends with its result at the specification's function of the arguments
    it was launched with, and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v10)
        = Cert.Spec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (result_eq _ _ _), (h c).2⟩)
    (Cert.ReferenceIdeal.Value.run (F := Ideal) m ρ)

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's assembly.

  The kernel sends each weight to its ternary value (1 above the threshold, -1 below its negation, 0 between) in a
  first launch, then forms x · wbᵀ + bias in a second launch that walks the contracted axis in four tiles of 1024,
  keeping the partial sums in an accumulator that is reset at the first tile and read out, with the bias row added, at
  the last. The reference takes the same ternary values and contracts in one inner product. On the extended reals the
  four tile sums added from zero ARE the one sum (addition there is commutative and associative, so no finiteness of
  the inputs is used), a change of float format is the identity, and both programs carry the same threshold words: the
  two results are one function of the arguments, `Cert.Spec.G`.

  The three frames: each kernel program's run, launch by launch, leaves every argument array as it was; the
  reference's run likewise. The idealization rewrote nothing, so there is nothing to preserve beyond the text itself.
-/
import proofs.«167524_j49074296324136_1_alg».proof.Defs
import proofs.«167524_j49074296324136_1_alg».proof.Proof.Gen.Kernel
import proofs.«167524_j49074296324136_1_alg».proof.Proof.Gen.KernelIdeal
import proofs.«167524_j49074296324136_1_alg».proof.Proof.Gen.ReferenceIdeal
import proofs.«167524_j49074296324136_1_alg».proof.Proof.Gen.Pre_finite_inputs
import proofs.«167524_j49074296324136_1_alg».proof.Proof.Kernel.Run
import proofs.«167524_j49074296324136_1_alg».proof.Proof.KernelIdeal.Run
import proofs.«167524_j49074296324136_1_alg».proof.Proof.KernelIdeal.KValue
import proofs.«167524_j49074296324136_1_alg».proof.Proof.RefValue

noncomputable section

namespace Cert.Proof

open Idealize.ShloMosaic Idealize.ShloMosaic.TcCoe Idealize.SL.Sem

/-- The word-level kernel program runs to the end and leaves its three arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- From memories agreeing on the arguments both idealized programs end with the result array at the specification's
    function of the kernel's arguments. -/
theorem algebraic : Cert.algebraic_KernelIdeal_ReferenceIdeal := by
  intro m g m' g' _ hagree
  refine ⟨fun c : Dev Cert.KernelIdeal.nD => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run_G m g, ?_⟩
  refine (θ_run Cert.ReferenceIdeal.defs _ _).mono (fun _ h c => ⟨(h c).1.trans ?_, (h c).2⟩)
    (Cert.ReferenceIdeal.RefValue.run_G m' g')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
